-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x2048 : Shape := ⟨3, ![64, 256, 2048]⟩
abbrev S2048x256 : Shape := ⟨2, ![2048, 256]⟩
abbrev S_ : Shape := ⟨0, ![]⟩

class Facts : Prop where
  bcast_S_S64x256x2048 : S_.BroadcastsInDim S64x256x2048 (![] : Fin 0 → Fin S64x256x2048.rank)
  reducesTo_S64x256x2048_S_d0_1_2 : S64x256x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_

variable [Facts]

def fn {F : FTy → Type} [FloatOps F] (main_arg0 : FVec F S64x256x2048 .f32) (main_arg1 : FVec F S2048x256 .f32) (main_arg2 : FVec F S2048x256 .f32) : IVec S_ 1 :=
  let main_v0 : FVec F S64x256x2048 .f32 := Host.absf main_arg0
  let main_cst : FVec F S_ .f32 := constant S_ .f32 0x7F800000#32
  let main_v1 : FVec F S64x256x2048 .f32 := broadcastInDim S64x256x2048 ![] bcast_S_S64x256x2048 main_cst
  let main_v2 : IVec S64x256x2048 1 := cmpf .olt main_v0 main_v1
  let main_c : IVec S_ 1 := constantI S_ 1 1#1
  let main_v3 : IVec S_ 1 := (fun x v => Host.reduce IntOp.andi x v reducesTo_S64x256x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  main_v13
-- ==== Kernel.lean ====
abbrev S64x256x2048 : Shape := ⟨3, ![64, 256, 2048]⟩
abbrev S2048x256 : Shape := ⟨2, ![2048, 256]⟩
abbrev S1x256 : Shape := ⟨2, ![1, 256]⟩
abbrev S4x256x2048 : Shape := ⟨3, ![4, 256, 2048]⟩
abbrev S4x256 : Shape := ⟨2, ![4, 256]⟩
abbrev S256 : Shape := ⟨1, ![256]⟩
abbrev S_ : Shape := ⟨0, ![]⟩
abbrev S1x256x1 : Shape := ⟨3, ![1, 256, 1]⟩
abbrev S256x2048 : Shape := ⟨2, ![256, 2048]⟩
abbrev S2x256x2048 : Shape := ⟨3, ![2, 256, 2048]⟩
abbrev S1x256x2048 : Shape := ⟨3, ![1, 256, 2048]⟩

abbrev nBuf : Space → Nat
  | .hbm => 22
  | .vmem => 12
  | .smem => 0
  | _ => 0

abbrev bufTy : (tb : Table) → Fin (tcTables nBuf tb) → BufTy
  | .hbm, ⟨0, _⟩ => ⟨S64x256x2048, .f32⟩
  | .hbm, ⟨1, _⟩ => ⟨S2048x256, .f32⟩
  | .hbm, ⟨2, _⟩ => ⟨S2048x256, .f32⟩
  | .hbm, ⟨3, _⟩ => ⟨S1x256, .f32⟩
  | .hbm, ⟨4, _⟩ => ⟨S1x256, .f32⟩
  | .hbm, ⟨5, _⟩ => ⟨S_, .f32⟩
  | .hbm, ⟨6, _⟩ => ⟨S1x256, .f32⟩
  | .hbm, ⟨7, _⟩ => ⟨S1x256, .f32⟩
  | .hbm, ⟨8, _⟩ => ⟨S_, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S_, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256x1, .f32⟩
  | .hbm, ⟨18, _⟩ => ⟨S1x256x1, .f32⟩
  | .hbm, ⟨19, _⟩ => ⟨S256x2048, .f32⟩
  | .hbm, ⟨20, _⟩ => ⟨S256x2048, .f32⟩
  | .hbm, ⟨21, _⟩ => ⟨S64x256x2048, .f32⟩
  | .local _ .vmem, ⟨0, _⟩ => ⟨S4x256x2048, .f32⟩
  | .local _ .vmem, ⟨1, _⟩ => ⟨S4x256x2048, .f32⟩
  | .local _ .vmem, ⟨2, _⟩ => ⟨S1x256, .f32⟩
  | .local _ .vmem, ⟨3, _⟩ => ⟨S1x256, .f32⟩
  | .local _ .vmem, ⟨4, _⟩ => ⟨S2x256x2048, .f32⟩
  | .local _ .vmem, ⟨5, _⟩ => ⟨S2x256x2048, .f32⟩
  | .local _ .vmem, ⟨6, _⟩ => ⟨S1x256x1, .f32⟩
  | .local _ .vmem, ⟨7, _⟩ => ⟨S1x256x1, .f32⟩
  | .local _ .vmem, ⟨8, _⟩ => ⟨S256x2048, .f32⟩
  | .local _ .vmem, ⟨9, _⟩ => ⟨S256x2048, .f32⟩
  | .local _ .vmem, ⟨10, _⟩ => ⟨S2x256x2048, .f32⟩
  | .local _ .vmem, ⟨11, _⟩ => ⟨S2x256x2048, .f32⟩
  | _, _ => ⟨S64x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S1x256_S1x256_0_0 : ∀ a, (![0, 0] : Fin 2 → Nat) a + S1x256.size a ≤ S1x256.size a
  h_S1x256 : 0 < S1x256.numel
  inb_S4x256x2048_S4x256x2048_0_0_0 : ∀ a, (![0, 0, 0] : Fin 3 → Nat) a + S4x256x2048.size a ≤ S4x256x2048.size a
  h_S4x256x2048 : 0 < S4x256x2048.numel
  reduces_S4x256x2048_S4x256 : S4x256x2048.Reduces [2] S4x256
  reduces_S4x256_S256 : S4x256.Reduces [0] S256
  shapeCasts_S1x256_S1x256 : S1x256.ShapeCasts S1x256
  shapeCasts_S256_S1x256 : S256.ShapeCasts S1x256
  bcast_S_S1x256 : S_.BroadcastsInDim S1x256 (![] : Fin 0 → Fin S1x256.rank)
  shapeCasts_S1x256_S1x256x1 : S1x256.ShapeCasts S1x256x1
  transposes_S2048x256_S256x2048_1_0 : S2048x256.Transposes [1, 0] S256x2048
  inb_S2x256x2048_S2x256x2048_0_0_0 : ∀ a, (![0, 0, 0] : Fin 3 → Nat) a + S2x256x2048.size a ≤ S2x256x2048.size a
  h_S2x256x2048 : 0 < S2x256x2048.numel
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1x256x1_S2x256x2048 : S1x256x1.Broadcasts S2x256x2048
  shapeCasts_S256x2048_S1x256x2048 : S256x2048.ShapeCasts S1x256x2048
  broadcasts_S1x256x2048_S2x256x2048 : S1x256x2048.Broadcasts S2x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S64x256x2048.size a
  hwx0_0 : ∀ i : grid0.Coords, EltTy.bits .f32 = 32 ∨ (Rect.block (s := S64x256x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x256x2048.size a ≤ S64x256x2048.size a
  hwx1_0 : ∀ i : grid1.Coords, EltTy.bits .f32 = 32 ∨ (Rect.block (s := S64x256x2048) S2x256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S1x256x1.size a
  hwx1_1 : ∀ i : grid1.Coords, EltTy.bits .f32 = 32 ∨ (Rect.block (s := S1x256x1) S1x256x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S1x256x1.size a
  hwx1_2 : ∀ i : grid1.Coords, EltTy.bits .f32 = 32 ∨ (Rect.block (s := S1x256x1) S1x256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S256x2048.size a
  hwx1_3 : ∀ i : grid1.Coords, EltTy.bits .f32 = 32 ∨ (Rect.block (s := S256x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x2048.size a ≤ S256x2048.size a
  hwx1_4 : ∀ i : grid1.Coords, EltTy.bits .f32 = 32 ∨ (Rect.block (s := S256x2048) S256x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x256x2048.size a ≤ S64x256x2048.size a
  hwx1_5 : ∀ i : grid1.Coords, EltTy.bits .f32 = 32 ∨ (Rect.block (s := S64x256x2048) S2x256x2048.size (cc1_transform_5 i) (hinb1_5 i)).WholeWords (EltTy.packing .f32)

variable [Facts₀]

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x256.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x256x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S256x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S256x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S2x256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x256x2048 : Shape := ⟨3, ![64, 256, 2048]⟩
abbrev S2048x256 : Shape := ⟨2, ![2048, 256]⟩
abbrev S_ : Shape := ⟨0, ![]⟩
abbrev S256 : Shape := ⟨1, ![256]⟩
abbrev S1x256x1 : Shape := ⟨3, ![1, 256, 1]⟩
abbrev S256x2048 : Shape := ⟨2, ![256, 2048]⟩
abbrev S1x256x2048 : Shape := ⟨3, ![1, 256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S64x256x2048, .f32⟩
  | .hbm, ⟨1, _⟩ => ⟨S2048x256, .f32⟩
  | .hbm, ⟨2, _⟩ => ⟨S2048x256, .f32⟩
  | .hbm, ⟨3, _⟩ => ⟨S_, .f32⟩
  | .hbm, ⟨4, _⟩ => ⟨S256, .f32⟩
  | .hbm, ⟨5, _⟩ => ⟨S1x256x1, .f32⟩
  | .hbm, ⟨6, _⟩ => ⟨S_, .f32⟩
  | .hbm, ⟨7, _⟩ => ⟨S1x256x1, .f32⟩
  | .hbm, ⟨8, _⟩ => ⟨S1x256x1, .f32⟩
  | .hbm, ⟨9, _⟩ => ⟨S64x256x2048, .f32⟩
  | .hbm, ⟨10, _⟩ => ⟨S64x256x2048, .f32⟩
  | .hbm, ⟨11, _⟩ => ⟨S64x256x2048, .f32⟩
  | .hbm, ⟨12, _⟩ => ⟨S_, .f32⟩
  | .hbm, ⟨13, _⟩ => ⟨S256, .f32⟩
  | .hbm, ⟨14, _⟩ => ⟨S1x256x1, .f32⟩
  | .hbm, ⟨15, _⟩ => ⟨S_, .f32⟩
  | .hbm, ⟨16, _⟩ => ⟨S1x256x1, .f32⟩
  | .hbm, ⟨17, _⟩ => ⟨S1x256x1, .f32⟩
  | .hbm, ⟨18, _⟩ => ⟨S64x256x2048, .f32⟩
  | .hbm, ⟨19, _⟩ => ⟨S64x256x2048, .f32⟩
  | .hbm, ⟨20, _⟩ => ⟨S_, .f32⟩
  | .hbm, ⟨21, _⟩ => ⟨S1x256x1, .f32⟩
  | .hbm, ⟨22, _⟩ => ⟨S1x256x1, .f32⟩
  | .hbm, ⟨23, _⟩ => ⟨S1x256x1, .f32⟩
  | .hbm, ⟨24, _⟩ => ⟨S64x256x2048, .f32⟩
  | .hbm, ⟨25, _⟩ => ⟨S64x256x2048, .f32⟩
  | .hbm, ⟨26, _⟩ => ⟨S256x2048, .f32⟩
  | .hbm, ⟨27, _⟩ => ⟨S1x256x2048, .f32⟩
  | .hbm, ⟨28, _⟩ => ⟨S64x256x2048, .f32⟩
  | .hbm, ⟨29, _⟩ => ⟨S64x256x2048, .f32⟩
  | .hbm, ⟨30, _⟩ => ⟨S256x2048, .f32⟩
  | .hbm, ⟨31, _⟩ => ⟨S1x256x2048, .f32⟩
  | .hbm, ⟨32, _⟩ => ⟨S64x256x2048, .f32⟩
  | .hbm, ⟨33, _⟩ => ⟨S64x256x2048, .f32⟩
  | _, _ => ⟨S64x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S64x256x2048_S256_d0_2 : S64x256x2048.ReducesTo [0, 2] S256
  h_S_ : 0 < S_.numel
  bcast_S256_S1x256x1_1 : S256.BroadcastsInDim S1x256x1 (![1] : Fin 1 → Fin S1x256x1.rank)
  bcast_S_S1x256x1 : S_.BroadcastsInDim S1x256x1 (![] : Fin 0 → Fin S1x256x1.rank)
  bcast_S1x256x1_S64x256x2048_0_1_2 : S1x256x1.BroadcastsInDim S64x256x2048 (![0, 1, 2] : Fin 3 → Fin S64x256x2048.rank)
  transposes_S2048x256_S256x2048_1_0 : S2048x256.Transposes [1, 0] S256x2048
  bcast_S256x2048_S1x256x2048_1_2 : S256x2048.BroadcastsInDim S1x256x2048 (![1, 2] : Fin 2 → Fin S1x256x2048.rank)
  bcast_S1x256x2048_S64x256x2048_0_1_2 : S1x256x2048.BroadcastsInDim S64x256x2048 (![0, 1, 2] : Fin 3 → Fin S64x256x2048.rank)

variable [Facts₀]

class Facts : Prop extends Facts₀ where

variable [Facts]
-- ==== Proof.Spec.lean ====
/-
  Batch normalisation through time, training mode, as functions of the three argument arrays over the extended
  reals: x of shape [64, 256, 2048] (batch, channel, time), gamma and beta of shape [2048, 256] (time, channel).

  For a channel c the statistics run over the 64 · 2048 = 131072 positions (n, t):
    chanSum x c   = ∑ x[n, c, t]            chanSumSq x c = ∑ x[n, c, t]²
    mean x c      = chanSum x c / 131072
  and the biased variance is written in two ways,
    varMoments x c = chanSumSq x c / 131072 − (mean x c)²        (second moment minus squared mean)
    varCentred x c = (∑ (x[n, c, t] − mean x c)²) / 131072       (mean squared deviation).
  The result at (n, c, t) is ((x[n, c, t] − mean) · rsqrt(var + ε)) · gamma[t, c] + beta[t, c], with one of the two
  variances. The divisor and ε are kept as the f32 words both programs spell, so that neither is ever evaluated
  where the two sides carry the same word.
-/
import Idealize.ShloMosaic.PureOps.Ideal
import Idealize.ShloMosaic.Lib.ValueIdx

noncomputable section

namespace Cert.Bntt

open Idealize.ShloMosaic Idealize.ShloMosaic.ValueIdx

/-- The shape of x, and the shape of gamma and beta. -/
abbrev SX : Shape := ⟨3, ![64, 256, 2048]⟩
abbrev SP : Shape := ⟨2, ![2048, 256]⟩

/-- The number of (batch, time) positions of one channel, 131072 = 64 · 2048, as the f32 word both programs divide by. -/
abbrev cnt : EReal := Ideal.ofBits .f32 0x48000000#32
/-- The ε under the root, as the f32 word both programs add. -/
abbrev eps : EReal := Ideal.ofBits .f32 0x38D1B717#32

/-- The sum of channel c over every batch entry and time step. -/
def chanSum (x : SX.Idx → EReal) (c : Fin 256) : EReal :=
  ∑ p : Fin 64 × Fin 2048, x (ix3 p.1 c p.2)

/-- The sum of the squares of channel c over every batch entry and time step. -/
def chanSumSq (x : SX.Idx → EReal) (c : Fin 256) : EReal :=
  ∑ p : Fin 64 × Fin 2048, x (ix3 p.1 c p.2) * x (ix3 p.1 c p.2)

/-- The mean of channel c. -/
def mean (x : SX.Idx → EReal) (c : Fin 256) : EReal := Ideal.div (chanSum x c) cnt

/-- The biased variance of channel c as its second moment minus its squared mean. -/
def varMoments (x : SX.Idx → EReal) (c : Fin 256) : EReal :=
  Ideal.div (chanSumSq x c) cnt - mean x c * mean x c

/-- The biased variance of channel c as its mean squared deviation from the mean. -/
def varCentred (x : SX.Idx → EReal) (c : Fin 256) : EReal :=
  Ideal.div (∑ p : Fin 64 × Fin 2048, (x (ix3 p.1 c p.2) - mean x c) * (x (ix3 p.1 c p.2) - mean x c)) cnt

/-- The normalised and affinely mapped entry at (n, c, t), for a given variance v of the channel. -/
def normed (v : EReal) (x : SX.Idx → EReal) (g b : SP.Idx → EReal) (n : Fin 64) (c : Fin 256) (t : Fin 2048) : EReal :=
  ((x (ix3 n c t) - mean x c) * Ideal.rsqrt (v + eps)) * g (ix2 t c) + b (ix2 t c)

/-- The result with the variance taken as second moment minus squared mean. -/
def outMoments (x : SX.Idx → EReal) (g b : SP.Idx → EReal) (n : Fin 64) (c : Fin 256) (t : Fin 2048) : EReal :=
  normed (varMoments x c) x g b n c t

/-- The result with the variance taken as mean squared deviation. -/
def outCentred (x : SX.Idx → EReal) (g b : SP.Idx → EReal) (n : Fin 64) (c : Fin 256) (t : Fin 2048) : EReal :=
  normed (varCentred x c) x g b n c t

end Cert.Bntt

end
-- ==== Proof.Variance.lean ====
import proofs.«121989_j4209067950399_1_alg».proof.Proof.Spec

/-
  The two spellings of the biased variance agree on real data.

  For one channel write f for its 131072 = 64 · 2048 real entries, S = ∑ f for their sum and m = S / 131072 for
  their mean. Expanding the square,
    ∑ (f − m)² = ∑ f² − 2 m S + 131072 m² = ∑ f² − S² / 131072,
  so the mean squared deviation (∑ (f − m)²) / 131072 equals the second moment (∑ f²) / 131072 minus m².
  Over the extended reals the same identity holds as soon as every entry is a real number: the divisor is a
  nonzero real, so dividing by it is multiplying by its reciprocal, and sums, products and differences of reals
  stay real, where the ring laws hold.
-/

noncomputable section

namespace Cert.Bntt

open Idealize.ShloMosaic Idealize.ShloMosaic.ValueIdx

/-- The divisor word denotes the real number 131072 = 2¹⁷: sign bit clear, biased exponent 144 = 127 + 17, zero
    fraction. -/
theorem cnt_eq : cnt = ((131072 : ℝ) : EReal) := by
  simp [cnt, Ideal.ofBits, Ideal.ieee, -EReal.coe_mul]; norm_num

/-- A finite sum of real numbers, taken in the extended reals, is the real sum. -/
theorem coe_real_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The real identity behind the two variances: for f over the 131072 positions with sum S and m = S / 131072,
    (∑ f²) / 131072 − m² = (∑ (f − m)²) / 131072, with division written as the product with the reciprocal. -/
theorem real_variance_identity (f : Fin 64 × Fin 2048 → ℝ) :
    (∑ p, f p * f p) * (1 / 131072) - ((∑ p, f p) * (1 / 131072)) * ((∑ p, f p) * (1 / 131072))
      = (∑ p, (f p - (∑ q, f q) * (1 / 131072)) * (f p - (∑ q, f q) * (1 / 131072))) * (1 / 131072) := by
  have hcard : (Finset.univ : Finset (Fin 64 × Fin 2048)).card = 131072 := by
    simp [Finset.card_univ, Fintype.card_prod, Fintype.card_fin]
  -- the square expanded and summed, for any centre m
  have hexp : ∀ m : ℝ, ∑ p, (f p - m) * (f p - m)
      = (∑ p, f p * f p) - 2 * m * (∑ p, f p) + 131072 * (m * m) := by
    intro m
    have h : ∀ p, (f p - m) * (f p - m) = f p * f p - 2 * m * f p + m * m := fun p => by ring
    simp only [h]
    rw [Finset.sum_add_distrib, Finset.sum_sub_distrib, ← Finset.mul_sum, Finset.sum_const, hcard, nsmul_eq_mul]
    push_cast; ring
  rw [hexp]; ring

/-- On real data, the second moment minus the squared mean of a channel equals its mean squared deviation from the
    mean. -/
theorem varMoments_eq_varCentred (x : SX.Idx → EReal) (hx : ∀ i, ∃ r : ℝ, x i = (r : EReal)) (c : Fin 256) :
    varMoments x c = varCentred x c := by
  choose r hr using hx
  have hN : (131072 : ℝ) ≠ 0 := by norm_num
  -- the mean is a real number
  have hmean : mean x c = (((∑ p : Fin 64 × Fin 2048, r (ix3 p.1 c p.2)) * (1 / 131072) : ℝ) : EReal) := by
    unfold mean chanSum
    simp only [hr]
    rw [coe_real_sum, cnt_eq, Ideal.div_coe hN, ← EReal.coe_mul]
  unfold varMoments varCentred chanSumSq
  rw [hmean]
  simp only [hr]
  simp only [← EReal.coe_mul, ← EReal.coe_sub]
  rw [coe_real_sum, coe_real_sum, cnt_eq, Ideal.div_coe hN, Ideal.div_coe hN, ← EReal.coe_mul, ← EReal.coe_mul,
    ← EReal.coe_sub]
  exact congrArg _ (real_variance_identity fun p => r (ix3 p.1 c p.2))

/-- On real data the normalised results computed with either variance are equal, since the variances are. -/
theorem outMoments_eq_outCentred (x : SX.Idx → EReal) (g b : SP.Idx → EReal) (hx : ∀ i, ∃ r : ℝ, x i = (r : EReal))
    (n : Fin 64) (c : Fin 256) (t : Fin 2048) : outMoments x g b n c t = outCentred x g b n c t := by
  unfold outMoments outCentred
  rw [varMoments_eq_varCentred x hx c]

end Cert.Bntt

end
-- ==== Proof.Finite.lean ====
/-
  Finiteness of the argument arrays, read off the precondition.

  The precondition is the conjunction, over the three argument arrays, of "every entry a has |a| < +∞", where
  |a| is max a (-a) on the extended reals and +∞ is spelt as the f32 word 0x7F800000. A conjunction of one-bit
  words that is 1 has both conjuncts 1; a reduction by "and" over every axis that is 1 had a 1 at every index; and
  max a (-a) < ⊤ excludes a = ⊤ (then max is ⊤) and a = ⊥ (then -a = ⊤), so a is the image of a real number.
-/
import proofs.«121989_j4209067950399_1_alg».proof.Defs
import proofs.«121989_j4209067950399_1_alg».proof.Proof.Gen.Pre_finite_inputs
import proofs.«121989_j4209067950399_1_alg».proof.Proof.Gen.KernelIdeal
import Idealize.ShloMosaic.Lib.ReduceAll

noncomputable section

namespace Cert.KernelIdeal.Finite

open Cert.KernelIdeal Idealize.ShloMosaic Idealize.ShloMosaic.TcCoe Idealize.SL.Sem

/-- An extended real a with max a (-a) < ⊤ is neither infinity, hence the image of a real number. -/
theorem real_of_abs_lt_top (a : EReal) (h : max a (-a) < ⊤) : ∃ r : ℝ, a = (r : EReal) := by
  induction a using EReal.rec with
  | bot => simp at h
  | coe r => exact ⟨r, rfl⟩
  | top => simp at h

/-- The f32 word 0x7F800000 (sign 0, exponent all ones, fraction 0) denotes +∞. -/
theorem inf_word : Ideal.ofBits .f32 0x7F800000#32 = (⊤ : EReal) := by
  simp [Ideal.ofBits, Ideal.ieee]

/-- The comparison "a < b" as a one-bit word is 1 exactly when a < b. -/
theorem cmp_olt_eq_one (a b : EReal) (h : Ideal.cmp .olt a b = 1#1) : a < b := by
  unfold Ideal.cmp at h
  by_contra hn
  simp [hn] at h

/-- An extended real a whose |a| = max a (-a) compares strictly below the word of +∞ is a real number. -/
theorem real_of_abs_cmp (a : EReal)
    (h : Ideal.cmp .olt (max a (-a)) (Ideal.ofBits .f32 0x7F800000#32) = 1#1) : ∃ r : ℝ, a = (r : EReal) := by
  have hlt := cmp_olt_eq_one _ _ h
  rw [inf_word] at hlt
  exact real_of_abs_lt_top a hlt

/-- The scalar shape has exactly one index. -/
instance : Subsingleton Cert.Pre_finite_inputs.S_.Idx := ⟨fun _ _ => funext fun d => d.elim0⟩

/-- Under the precondition every entry of x is a real number: the precondition's first conjunct says that
    |x[i]| < +∞ at every index i, which on the extended reals leaves only the real numbers. -/
theorem x_real [hPre_finite_inputs : Cert.Pre_finite_inputs.Facts] (m : (ℓ : Loc nD τ sig) → Buf (Elt Ideal) ℓ) (h : Cert.Pre_KernelIdeal m) (c : Dev nD)
    (i : S64x256x2048.Idx) : ∃ r : ℝ, m ((c.tc : Thread nD τ).loc main_arg0) i = (r : EReal) := by
  have h0 := congrFun (h c) (fun a => a.elim0)
  dsimp only [Cert.Pre_finite_inputs.fn] at h0
  have h1 := (IntOp.andi_eq_one.1 h0).1
  have h2 := (IntOp.andi_eq_one.1 h1).1
  have h3 := Host.reduce_andi_all _ _ _ _ _ h2 i
  exact real_of_abs_cmp _ h3

end Cert.KernelIdeal.Finite

end
-- ==== Proof.RefValue.lean ====
import proofs.«121989_j4209067950399_1_alg».proof.Proof.Gen.ReferenceIdeal.Read
import proofs.«121989_j4209067950399_1_alg».proof.Proof.Spec
import Idealize.ShloMosaic.PureOps.Ideal.Laws

noncomputable section

namespace Cert.ReferenceIdeal.RefValue

open Cert.ReferenceIdeal Idealize.ShloMosaic Idealize.ShloMosaic.ValueIdx

/-! ## A sum over batch and time, read at a channel

The reduction over axes 0 and 2 of a [64, 256, 2048] array adds, at channel c, the entries whose index keeps
c once the batch and time coordinates are removed. Those indices are exactly the (n, c, t), one for each pair
(n, t), so the sum runs over the pairs. -/

/-- Removing the batch and time coordinates of (n, c, t) leaves c. -/
theorem drop_ix3 (h : S64x256x2048.ReducesTo [0, 2] S256) (n : Fin 64) (c : Fin 256) (t : Fin 2048) :
    h.drop (ix3 n c t) = ix1 c := by
  funext a
  match a with
  | ⟨0, _⟩ => rfl

/-- The pairs (n, t) inside the index set, at a fixed channel c: p ↦ (p.1, c, p.2) is injective. -/
def chanEmb (c : Fin 256) : Fin 64 × Fin 2048 ↪ S64x256x2048.Idx :=
  ⟨fun p => ix3 p.1 c p.2, fun p q h => Prod.ext (congrFun h 0) (congrFun h 2)⟩

/-- The indices whose channel coordinate is c are the image of the pairs (n, t) under p ↦ (p.1, c, p.2). -/
theorem filter_drop (h : S64x256x2048.ReducesTo [0, 2] S256) (c : Fin 256) :
    Finset.univ.filter (fun i : S64x256x2048.Idx => h.drop i = ix1 c) = Finset.univ.map (chanEmb c) := by
  ext i
  simp only [Finset.mem_filter, Finset.mem_univ, true_and, Finset.mem_map, chanEmb, Function.Embedding.coeFn_mk]
  constructor
  · intro hi
    obtain ⟨n, c', t, rfl⟩ : ∃ n c' t, i = ix3 n c' t := ⟨_, _, _, eq_ix3 i⟩
    have hc : c' = c := congrFun hi 0
    subst hc
    exact ⟨(n, t), rfl⟩
  · rintro ⟨p, rfl⟩
    exact drop_ix3 h p.1 c p.2

/-- The sum over axes 0 and 2 started from the zero word, at channel c, is the sum over all pairs (n, t) of the
    entries at (n, c, t), whatever the summand. -/
theorem reduce_apply (h : S64x256x2048.ReducesTo [0, 2] S256) (y : S64x256x2048.Idx → EReal) (c : Fin 256) :
    Ideal.hostReduceAdd h y (Ideal.ofBits .f32 0x00000000#32) (ix1 c) = ∑ p : Fin 64 × Fin 2048, y (ix3 p.1 c p.2) := by
  unfold Ideal.hostReduceAdd
  rw [filter_drop, Finset.sum_map, Ideal.ofBits_zero_f32, zero_add]
  rfl

/-! ## The statistics of a channel, as the reference program computes them -/

/-- The first reduction at channel c is the channel's sum. -/
theorem sum_apply (x : S64x256x2048.Idx → EReal) (c : Fin 256) :
    Read.val_main_v0 (F := Ideal) x (ix1 c) = Cert.Bntt.chanSum x c := by
  show Ideal.hostReduceAdd _ x (Ideal.ofBits .f32 0x00000000#32) (ix1 c) = _
  rw [reduce_apply]
  rfl

/-- The quotient of the channel's sum by the count, read at any index of the [1, 256, 1] array whose middle
    coordinate is c, is the channel's mean. -/
theorem mean_apply (x : S64x256x2048.Idx → EReal) (j : S1x256x1.Idx) (c : Fin 256) (hj : (j 1).val = c.val) :
    Read.val_main_v3 (F := Ideal) x j = Cert.Bntt.mean x c := by
  have e : Read.idx_main_v1 j = ix1 c := funext fun a => match a with | ⟨0, _⟩ => Fin.ext hj
  rw [Read.val_main_v3_apply, Read.val_main_v1_apply, Read.val_main_v2_apply, Read.val_main_cst_0_apply, e, sum_apply]
  rfl

/-- The deviation the variance squares: the entry at (n, c, t) minus the channel's mean. -/
theorem dev_apply (x : S64x256x2048.Idx → EReal) (n : Fin 64) (c : Fin 256) (t : Fin 2048) :
    Read.val_main_v5 (F := Ideal) x (ix3 n c t) = x (ix3 n c t) - Cert.Bntt.mean x c := by
  rw [Read.val_main_v5_apply, Read.val_main_v4_apply, mean_apply x _ c rfl]
  rfl

/-- The second reduction at channel c is the sum of the squared deviations from the mean. -/
theorem sumsq_apply (x : S64x256x2048.Idx → EReal) (c : Fin 256) :
    Read.val_main_v7 (F := Ideal) x (ix1 c)
      = ∑ p : Fin 64 × Fin 2048, (x (ix3 p.1 c p.2) - Cert.Bntt.mean x c) * (x (ix3 p.1 c p.2) - Cert.Bntt.mean x c) := by
  show Ideal.hostReduceAdd _ (Read.val_main_v6 (F := Ideal) x) (Ideal.ofBits .f32 0x00000000#32) (ix1 c) = _
  rw [reduce_apply]
  refine Finset.sum_congr rfl fun p _ => ?_
  rw [Read.val_main_v6_apply, dev_apply]
  rfl

/-- Its quotient by the count, read where the middle coordinate is c, is the mean squared deviation. -/
theorem var_apply (x : S64x256x2048.Idx → EReal) (j : S1x256x1.Idx) (c : Fin 256) (hj : (j 1).val = c.val) :
    Read.val_main_v10 (F := Ideal) x j = Cert.Bntt.varCentred x c := by
  have e : Read.idx_main_v8 j = ix1 c := funext fun a => match a with | ⟨0, _⟩ => Fin.ext hj
  rw [Read.val_main_v10_apply, Read.val_main_v8_apply, Read.val_main_v9_apply, Read.val_main_cst_2_apply, e, sumsq_apply]
  rfl

/-- The reciprocal root of the variance plus ε, read where the middle coordinate is c. -/
theorem invstd_apply (x : S64x256x2048.Idx → EReal) (j : S1x256x1.Idx) (c : Fin 256) (hj : (j 1).val = c.val) :
    Read.val_main_v15 (F := Ideal) x j = Ideal.rsqrt (Cert.Bntt.varCentred x c + Cert.Bntt.eps) := by
  rw [Read.val_main_v15_apply, Read.val_main_v14_apply, Read.val_main_v13_apply, Read.val_main_cst_3_apply,
    var_apply x j c hj]
  rfl

/-- The transposed and broadcast parameter array at (n, c, t) is the parameter at (t, c). -/
theorem gamma_apply (g : S2048x256.Idx → EReal) (n : Fin 64) (c : Fin 256) (t : Fin 2048) :
    Read.val_main_v20 (F := Ideal) g (ix3 n c t) = g (ix2 t c) := by
  rw [Read.val_main_v20_apply, Read.val_main_v19_apply, Read.val_main_v18_apply]
  congr 1
  funext a
  match a with
  | ⟨0, _⟩ => rfl
  | ⟨1, _⟩ => rfl

/-- The same for the second parameter array. -/
theorem beta_apply (b : S2048x256.Idx → EReal) (n : Fin 64) (c : Fin 256) (t : Fin 2048) :
    Read.val_main_v24 (F := Ideal) b (ix3 n c t) = b (ix2 t c) := by
  rw [Read.val_main_v24_apply, Read.val_main_v23_apply, Read.val_main_v22_apply]
  congr 1
  funext a
  match a with
  | ⟨0, _⟩ => rfl
  | ⟨1, _⟩ => rfl

/-- The reference program's result at (n, c, t) is the normalised, scaled and shifted entry
    ((x[n, c, t] − mean) · rsqrt(var + ε)) · gamma[t, c] + beta[t, c], with the variance of channel c taken as the
    mean squared deviation from the channel's mean. -/
theorem result_apply (x : (⟨S64x256x2048, .f32⟩ : BufTy).Contents (Elt Ideal))
    (g b : (⟨S2048x256, .f32⟩ : BufTy).Contents (Elt Ideal)) (n : Fin 64) (c : Fin 256) (t : Fin 2048) :
    Cert.ReferenceIdeal.Read.val_main_v25 (F := Ideal) x g b (ix3 n c t) = Cert.Bntt.outCentred x g b n c t := by
  unfold Cert.Bntt.outCentred Cert.Bntt.normed
  rw [Read.val_main_v25_apply, Read.val_main_v21_apply, Read.val_main_v17_apply, Read.val_main_v12_apply,
    Read.val_main_v11_apply, Read.val_main_v16_apply, mean_apply x _ c rfl, invstd_apply x _ c rfl, gamma_apply,
    beta_apply]
  rfl

end Cert.ReferenceIdeal.RefValue

end
-- ==== Proof.Stats.lean ====
import proofs.«121989_j4209067950399_1_alg».proof.Proof.Gen.KernelIdeal.Frame
import proofs.«121989_j4209067950399_1_alg».proof.Proof.Spec
import Idealize.ShloMosaic.Lib.Pipeline.Value
import Idealize.ShloMosaic.Lib.ValueLayout
import Idealize.ShloMosaic.PureOps.Ideal.Laws

noncomputable section

namespace Cert.KernelIdeal.Stats

open Cert.KernelIdeal Cert.KernelIdeal.Gen Idealize.ShloMosaic Idealize.ShloMosaic.TcCoe Idealize.SL.Sem Idealize.ShloMosaic.ValueIdx
open Idealize.ShloMosaic.Pipeline (Dat)

/-! ## What one grid point leaves in the two accumulators, for any float values -/

section Pieces
variable {F : FTy → Type} [FloatOps F]

/-- The all-zero offsets of rank 2, spelt as a literal vector. -/
theorem hz2 : (![0, 0] : Fin 2 → Nat) = fun _ => 0 := funext fun a => by fin_cases a <;> rfl
/-- The all-zero offsets of rank 3, spelt as a literal vector. -/
theorem hz3 : (![0, 0, 0] : Fin 3 → Nat) = fun _ => 0 := funext fun a => by fin_cases a <;> rfl

/-- At a point other than the first, the sum accumulator holding `xo1` is left at `xo1` plus the block's
    per-channel sum (over the lane axis, then over the leading axis). -/
theorem out_B_1 (c : Dev nD) (i : grid0.Coords) (a1 : Memref sig .tc .vmem S4x256x2048 .f32) (h1 : a1.IsWhole)
    (a2 : Memref sig .tc .vmem S1x256 .f32) (h2 : a2.IsWhole) (a3 : Memref sig .tc .vmem S1x256 .f32) (h3 : a3.IsWhole)
    (hc : ¬cond0_0 i) (x : Vec F S4x256x2048 .f32) (xo1 xo2 : Vec F S1x256 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  rw [View.canon_unit_zero hz2]
  simp only [View.readAt_eq_ld, h1.read_unread, h2.read_unread, View.ld_unit_zero (S := S4x256x2048) hz3,
    View.ld_unit_zero (S := S1x256) hz2]

/-- At a point other than the first, the sum-of-squares accumulator holding `xo2` is left at `xo2` plus the
    per-channel sum of the block's squares. -/
theorem out_B_2 (c : Dev nD) (i : grid0.Coords) (a1 : Memref sig .tc .vmem S4x256x2048 .f32) (h1 : a1.IsWhole)
    (a2 : Memref sig .tc .vmem S1x256 .f32) (h2 : a2.IsWhole) (a3 : Memref sig .tc .vmem S1x256 .f32) (h3 : a3.IsWhole)
    (hc : ¬cond0_0 i) (x : Vec F S4x256x2048 .f32) (xo1 xo2 : Vec F S1x256 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  rw [View.canon_unit_zero hz2]
  simp only [View.readAt_eq_ld, h1.read_unread, h3.read_unread, View.ld_unit_zero (S := S4x256x2048) hz3,
    View.ld_unit_zero (S := S1x256) hz2]

/-- At the first point the sum accumulator is reset to the zero block and then receives the block's per-channel sum. -/
theorem out_A_1 (c : Dev nD) (i : grid0.Coords) (a1 : Memref sig .tc .vmem S4x256x2048 .f32) (h1 : a1.IsWhole)
    (a2 : Memref sig .tc .vmem S1x256 .f32) (h2 : a2.IsWhole) (a3 : Memref sig .tc .vmem S1x256 .f32) (h3 : a3.IsWhole)
    (hc : cond0_0 i) (x : Vec F S4x256x2048 .f32) :
    out0_A_1 c i a1 h1 a2 h2 a3 h3 hc x = k0_pay3 x k0_pay1 := by
  unfold out0_A_1
  rw [View.read_writes_eq_canon _ _ _ (cover0_A_1 c i a1 h1 a2 h2 a3 h3 hc x)]
  unfold kernelRun0_A
  dsimp only
  sl_unfold_words
  rw [View.canon_cons_unit_zero (S := S1x256) hz2, View.readCov_unit_zero (S := S1x256) _ hz2]
  simp only [View.readAt_eq_ld, h1.read_unread, View.ld_unit_zero (S := S4x256x2048) hz3]

/-- At the first point the sum-of-squares accumulator is reset to the zero block and then receives the per-channel
    sum of the block's squares. -/
theorem out_A_2 (c : Dev nD) (i : grid0.Coords) (a1 : Memref sig .tc .vmem S4x256x2048 .f32) (h1 : a1.IsWhole)
    (a2 : Memref sig .tc .vmem S1x256 .f32) (h2 : a2.IsWhole) (a3 : Memref sig .tc .vmem S1x256 .f32) (h3 : a3.IsWhole)
    (hc : cond0_0 i) (x : Vec F S4x256x2048 .f32) :
    out0_A_2 c i a1 h1 a2 h2 a3 h3 hc x = k0_pay4 x k0_pay2 := by
  unfold out0_A_2
  rw [View.read_writes_eq_canon _ _ _ (cover0_A_2 c i a1 h1 a2 h2 a3 h3 hc x)]
  unfold kernelRun0_A
  dsimp only
  sl_unfold_words
  rw [View.canon_cons_unit_zero (S := S1x256) hz2, View.readCov_unit_zero (S := S1x256) _ hz2]
  simp only [View.readAt_eq_ld, h1.read_unread, View.ld_unit_zero (S := S4x256x2048) hz3]

end Pieces

/-! ## The same over the extended reals, read at one channel -/

section AtIdeal

/-- The per-channel sum of a block: over its 4 batch entries and 2048 time steps. -/
def blkSum (x : Vec Ideal S4x256x2048 .f32) (ch : Fin 256) : EReal := ∑ bb : Fin 4, ∑ t : Fin 2048, x (ix3 bb ch t)

/-- The per-channel sum of squares of a block. -/
def blkSumSq (x : Vec Ideal S4x256x2048 .f32) (ch : Fin 256) : EReal :=
  ∑ bb : Fin 4, ∑ t : Fin 2048, x (ix3 bb ch t) * x (ix3 bb ch t)

/-- Summing a block over its time axis and then over its batch axis gives, at channel `ch`, the double sum. -/
theorem reduce_apply (y : FVec Ideal S4x256x2048 .f32) (u : Fin 1) (ch : Fin 256) :
    (shapeCast S1x256 (multiReduction (F := Ideal) .add [0] S256 (multiReduction (F := Ideal) .add [2] S4x256 y 0x00000000#32
        reduces_S4x256x2048_S4x256 (.inl rfl) rfl) 0x00000000#32 reduces_S4x256_S256 (.inl rfl) rfl)
      shapeCasts_S256_S1x256 (ix2 u ch) : EReal) = ∑ bb : Fin 4, ∑ t : Fin 2048, y (ix3 bb ch t) := by
  rw [shapeCast_a_1a_apply]
  refine (Ideal.multiReduction_add_single _ _ reduces_S4x256_S256 _ _ (ix1 ch)).trans ?_
  refine Finset.sum_congr rfl fun bb _ => ?_
  refine (Ideal.multiReduction_add_single y _ reduces_S4x256x2048_S4x256 _ _ _).trans ?_
  refine Finset.sum_congr rfl fun t _ => ?_
  congr 1
  funext a
  apply Fin.ext
  match a with
  | ⟨0, _⟩ => rfl
  | ⟨1, _⟩ => rfl
  | ⟨2, _⟩ => rfl

/-- The sum accumulator's update at a channel: the old entry plus the block's sum there. -/
theorem pay3_apply (x : Vec Ideal S4x256x2048 .f32) (xo : Vec Ideal S1x256 .f32) (u : Fin 1) (ch : Fin 256) :
    k0_pay3 x xo (ix2 u ch) = xo (ix2 u ch) + blkSum x ch := by
  unfold k0_pay3 blkSum
  rw [addf_apply, shapeCast_self, reduce_apply]

/-- The sum-of-squares accumulator's update at a channel: the old entry plus the block's sum of squares there. -/
theorem pay4_apply (x : Vec Ideal S4x256x2048 .f32) (xo : Vec Ideal S1x256 .f32) (u : Fin 1) (ch : Fin 256) :
    k0_pay4 x xo (ix2 u ch) = xo (ix2 u ch) + blkSumSq x ch := by
  unfold k0_pay4 blkSumSq
  rw [addf_apply, shapeCast_self, reduce_apply]
  rfl

/-- The reset block is zero everywhere. -/
theorem pay1_apply (j : S1x256.Idx) : k0_pay1 (F := Ideal) j = 0 := Ideal.ofBits_zero_f32
/-- So is the reset block of the sum of squares. -/
theorem pay2_apply (j : S1x256.Idx) : k0_pay2 (F := Ideal) j = 0 := Ideal.ofBits_zero_f32

end AtIdeal

variable (V : (c : Dev nD) → (b : Ref sig .tc) → Buf (Elt Ideal) ((c : Thread nD τ).loc b))

/-! ## The accumulators after each point: the running sums over the blocks so far -/

/-- The block of x the first window holds at point `t`. -/
abbrev xblk (c : Dev nD) (t : Fin cfg0.N) : Vec Ideal S4x256x2048 .f32 := iblk0 V c 0 t
/-- The whole array x. -/
abbrev xarr (c : Dev nD) : Vec Ideal S64x256x2048 .f32 := V c main_arg0

/-- The running sum of channel `ch` after point `n`: zero plus the first block's sum, then each further block's. -/
def run1 (c : Dev nD) (ch : Fin 256) : (n : ℕ) → n < cfg0.N → EReal
  | 0, h => 0 + blkSum (xblk V c ⟨0, h⟩) ch
  | n + 1, h => run1 c ch n (Nat.lt_of_succ_lt h) + blkSum (xblk V c ⟨n + 1, h⟩) ch

/-- The running sum of squares of channel `ch` after point `n`. -/
def run2 (c : Dev nD) (ch : Fin 256) : (n : ℕ) → n < cfg0.N → EReal
  | 0, h => 0 + blkSumSq (xblk V c ⟨0, h⟩) ch
  | n + 1, h => run2 c ch n (Nat.lt_of_succ_lt h) + blkSumSq (xblk V c ⟨n + 1, h⟩) ch

/-- After point `n` the two accumulators hold, at every channel, the running sum and the running sum of squares:
    by induction on the point, the first point resetting and every later one adding to what the one before left. -/
theorem outsAt_eq (c : Dev nD) (u : Fin 1) (ch : Fin 256) : ∀ (n : ℕ) (h : n < cfg0.N),
    (outsAt0 V c n h).1 (ix2 u ch) = run1 V c ch n h ∧ (outsAt0 V c n h).2 (ix2 u ch) = run2 V c ch n h
  | 0, h => by
    rw [outsAt0_A V c ⟨0, h⟩ rfl]
    dsimp only
    rw [out_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr rfl) (iblk0 V c 0 ⟨0, h⟩),
      out_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr rfl) (iblk0 V c 0 ⟨0, h⟩),
      pay3_apply, pay4_apply, pay1_apply, pay2_apply]
    exact ⟨rfl, rfl⟩
  | n + 1, h => by
    have hN : cfg0.N = 16 := N_0
    have hB : ¬(⟨n + 1, h⟩ : Fin cfg0.N).val % 16 = 0 := by dsimp only; omega
    obtain ⟨ih1, ih2⟩ := outsAt_eq c u ch n (Nat.lt_of_succ_lt h)
    rw [outsAt0_B V c ⟨n + 1, h⟩ hB]
    dsimp only
    rw [out_B_1 c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => hB ((hcond0_0 ⟨n + 1, h⟩).mp hh)) (iblk0 V c 0 ⟨n + 1, h⟩)
        (outsAt0 V c (n + 1 - 1) (Nat.lt_of_le_of_lt (Nat.sub_le _ _) h)).1
        (outsAt0 V c (n + 1 - 1) (Nat.lt_of_le_of_lt (Nat.sub_le _ _) h)).2,
      out_B_2 c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => hB ((hcond0_0 ⟨n + 1, h⟩).mp hh)) (iblk0 V c 0 ⟨n + 1, h⟩)
        (outsAt0 V c (n + 1 - 1) (Nat.lt_of_le_of_lt (Nat.sub_le _ _) h)).1
        (outsAt0 V c (n + 1 - 1) (Nat.lt_of_le_of_lt (Nat.sub_le _ _) h)).2,
      pay3_apply, pay4_apply]
    exact ⟨congrArg (· + blkSum (xblk V c ⟨n + 1, h⟩) ch) ih1, congrArg (· + blkSumSq (xblk V c ⟨n + 1, h⟩) ch) ih2⟩

/-- The running sums in closed form: after point `n`, the sum over the blocks 0, …, n. -/
theorem run1_eq (c : Dev nD) (ch : Fin 256) : ∀ (n : ℕ) (h : n < cfg0.N),
    run1 V c ch n h = ∑ k : Fin (n + 1), blkSum (xblk V c ⟨k.val, lt_of_lt_of_le k.isLt (Nat.succ_le_of_lt h)⟩) ch
  | 0, h => by rw [Fin.sum_univ_castSucc, Fin.sum_univ_zero]; rfl
  | n + 1, h => by rw [Fin.sum_univ_castSucc, run1, run1_eq c ch n]; rfl

/-- The running sums of squares in closed form likewise. -/
theorem run2_eq (c : Dev nD) (ch : Fin 256) : ∀ (n : ℕ) (h : n < cfg0.N),
    run2 V c ch n h = ∑ k : Fin (n + 1), blkSumSq (xblk V c ⟨k.val, lt_of_lt_of_le k.isLt (Nat.succ_le_of_lt h)⟩) ch
  | 0, h => by rw [Fin.sum_univ_castSucc, Fin.sum_univ_zero]; rfl
  | n + 1, h => by rw [Fin.sum_univ_castSucc, run2, run2_eq c ch n]; rfl

/-- The window's index map: at point `t` the block starts at batch entry `4t`, channel 0, time 0. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block at point `t` is the slab of x of batch entries `4t, …, 4t + 3`: entry `(bb, ch, tt)` of the block is
    entry `(4t + bb, ch, tt)` of x. -/
theorem xblk_apply (c : Dev nD) (t : Fin cfg0.N) (bb : Fin 4) (ch : Fin 256) (tt : Fin 2048) :
    xblk V c t (ix3 bb ch tt)
      = xarr V c (ix3 ⟨4 * t.val + bb.val, by have := t.isLt; have hN : cfg0.N = 16 := N_0; have := bb.isLt; omega⟩ ch tt) := by
  obtain ⟨i0, i1, i2⟩ := index0 t
  unfold xblk iblk0
  rw [View.read_apply]
  show V c main_arg0 _ = V c main_arg0 _
  congr 1
  funext a
  apply Fin.ext
  match a with
  | ⟨0, _⟩ => show win0_0.index t 0 * 4 + 1 * bb.val = 4 * t.val + bb.val; rw [i0]; omega
  | ⟨1, _⟩ => show win0_0.index t 1 * 256 + 1 * ch.val = ch.val; rw [i1]; omega
  | ⟨2, _⟩ => show win0_0.index t 2 * 2048 + 1 * tt.val = tt.val; rw [i2]; omega

/-- A sum over the 64 batch entries, taken as 16 groups of 4 consecutive ones. -/
theorem sum_64 (g : Fin 64 → EReal) :
    ∑ n : Fin 64, g n = ∑ k : Fin 16, ∑ bb : Fin 4, g ⟨4 * k.val + bb.val, by have := k.isLt; have := bb.isLt; omega⟩ := by
  rw [← Equiv.sum_comp (finProdFinEquiv : Fin 16 × Fin 4 ≃ Fin 64) g, Fintype.sum_prod_type]
  refine Finset.sum_congr rfl fun k _ => Finset.sum_congr rfl fun bb _ => congrArg g (Fin.ext ?_)
  show bb.val + 4 * k.val = 4 * k.val + bb.val
  omega

/-! ## The result arrays: the one write-back, after the last point, covers each -/

/-- The grid has 16 points, so 15 is its last. -/
theorem lt15 : 15 < cfg0.N := by rw [show cfg0.N = 16 from N_0]; decide

/-- What the sum accumulator holds after the last point. -/
abbrev res1 (c : Dev nD) : Buf (Elt Ideal) ((c : Thread nD τ).loc main_v0_0) := (outsAt0 V c 15 lt15).1
/-- What the sum-of-squares accumulator holds after the last point. -/
abbrev res2 (c : Dev nD) : Buf (Elt Ideal) ((c : Thread nD τ).loc main_v0_1) := (outsAt0 V c 15 lt15).2

/-- The sum's one write-back, at the last point, writes the accumulator: its block is the whole [1, 256] array. -/
theorem flushed_eq_1 (c : Dev nD) (t : Fin cfg0.N) (hf : (cfg0.win 1).flush t = true) :
    (dat0 V c).flushed 1 t = ((cfg0.win 1).blk t).view.read (Elt Ideal) (res1 V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1]
  have hz' : (fun a => win0_1.index t0_15 a * main_v0_0.ty.shape.size a) = fun _ => 0 := funext fun a => by fin_cases a <;> decide
  exact (Memref.read_access_unit_zero (Elt Ideal) main_v0_0 hz' (fun a => by rw [congrFun hz' a]; simp) (res1 V c)).symm

/-- The sum of squares' one write-back likewise. -/
theorem flushed_eq_2 (c : Dev nD) (t : Fin cfg0.N) (hf : (cfg0.win 2).flush t = true) :
    (dat0 V c).flushed 2 t = ((cfg0.win 2).blk t).view.read (Elt Ideal) (res2 V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2]
  have hz' : (fun a => win0_2.index t0_15 a * main_v0_1.ty.shape.size a) = fun _ => 0 := funext fun a => by fin_cases a <;> decide
  exact (Memref.read_access_unit_zero (Elt Ideal) main_v0_1 hz' (fun a => by rw [congrFun hz' a]; simp) (res2 V c)).symm

/-- So the sum's result array ends holding the accumulator after the last point. -/
theorem final_1 (c : Dev nD) : (dat0 V c).arrAt 1 cfg0.N = res1 V c :=
  (dat0 V c).arrAt_eq_of_cover 1 (res1 V c) (flushed_eq_1 V c) fun i =>
    ⟨t0_15, (flush0_1 t0_15).mpr rfl, by
      show i ∈ ((View.whole main_v0_0).slice (win0_1.rect t0_15)).set
      rw [View.set_slice_whole, Rect.mem_set_unit]
      intro a
      have h0 : (i 0 : Nat) < 1 := (i 0).isLt
      have h1 : (i 1 : Nat) < 256 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 256 from by decide +kernel]; omega⟩

/-- And the sum of squares' result array likewise. -/
theorem final_2 (c : Dev nD) : (dat0 V c).arrAt 2 cfg0.N = res2 V c :=
  (dat0 V c).arrAt_eq_of_cover 2 (res2 V c) (flushed_eq_2 V c) fun i =>
    ⟨t0_15, (flush0_2 t0_15).mpr rfl, by
      show i ∈ ((View.whole main_v0_1).slice (win0_2.rect t0_15)).set
      rw [View.set_slice_whole, Rect.mem_set_unit]
      intro a
      have h0 : (i 0 : Nat) < 1 := (i 0).isLt
      have h1 : (i 1 : Nat) < 256 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 256 from by decide +kernel]; omega⟩

/-- After the 16 grid points the first result array holds, at every channel, the sum of x over all 64 batch
    entries and 2048 time steps of that channel. -/
theorem sum_final (c : Dev nD) :
    (dat0 V c).arrAt 1 cfg0.N = fun j => Cert.Bntt.chanSum (V c main_arg0) (j 1) := by
  rw [final_1]
  funext j
  obtain ⟨u, ch, rfl⟩ : ∃ u ch, j = ix2 u ch := ⟨j 0, j 1, eq_ix2 j⟩
  show (outsAt0 V c 15 lt15).1 (ix2 u ch) = Cert.Bntt.chanSum (V c main_arg0) ch
  rw [(outsAt_eq V c u ch 15 lt15).1, run1_eq]
  unfold Cert.Bntt.chanSum blkSum
  rw [Fintype.sum_prod_type, sum_64]
  refine Finset.sum_congr rfl fun k _ => Finset.sum_congr rfl fun bb _ => Finset.sum_congr rfl fun t _ => ?_
  exact xblk_apply V c _ bb ch t

/-- After the 16 grid points the second result array holds, at every channel, the sum of x² over all 64 batch
    entries and 2048 time steps of that channel. -/
theorem sumsq_final (c : Dev nD) :
    (dat0 V c).arrAt 2 cfg0.N = fun j => Cert.Bntt.chanSumSq (V c main_arg0) (j 1) := by
  rw [final_2]
  funext j
  obtain ⟨u, ch, rfl⟩ : ∃ u ch, j = ix2 u ch := ⟨j 0, j 1, eq_ix2 j⟩
  show (outsAt0 V c 15 lt15).2 (ix2 u ch) = Cert.Bntt.chanSumSq (V c main_arg0) ch
  rw [(outsAt_eq V c u ch 15 lt15).2, run2_eq]
  unfold Cert.Bntt.chanSumSq blkSumSq
  rw [Fintype.sum_prod_type, sum_64]
  refine Finset.sum_congr rfl fun k _ => Finset.sum_congr rfl fun bb _ => Finset.sum_congr rfl fun t _ => ?_
  rw [xblk_apply V c _ bb ch t]

end Cert.KernelIdeal.Stats

end
-- ==== Proof.Norm.lean ====
/-
  The second pallas_call's value. Its body is pointwise: at a grid point it holds a [2, 256, 2048] block of x, the
  whole [1, 256, 1] arrays of per-channel means and inverse standard deviations, and the whole [256, 2048] transposed
  gamma and beta, and stores ((x − mean) · invstd) · gammaᵀ + betaᵀ, the per-channel arrays broadcast along batch and
  time and the transposed ones along batch. Point t reads and writes batch rows 2t and 2t + 1; the 32 output blocks
  tile the result array, so after the run the array is that one function of the arrays the call is entered with,
  index by index.
-/
import proofs.«121989_j4209067950399_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Norm

open Cert.KernelIdeal Cert.KernelIdeal.Gen Idealize.ShloMosaic Idealize.ShloMosaic.TcCoe Idealize.SL.Sem
open Idealize.ShloMosaic.ValueIdx
open Idealize.ShloMosaic.Pipeline (Dat)

theorem zero3 : (![0, 0, 0] : Fin 3 → Nat) = fun _ => 0 := funext fun a => by fin_cases a <;> rfl
theorem zero2 : (![0, 0] : Fin 2 → Nat) = fun _ => 0 := funext fun a => by fin_cases a <;> rfl

/-- A per-channel [1, 256, 1] array broadcast to a [2, 256, 2048] block reads, at (p, q, r), its entry of channel q. -/
theorem bcast_channel (v : S1x256x1.Idx → EReal) (h : S1x256x1.Broadcasts S2x256x2048) (p : Fin 2) (q : Fin 256) (r : Fin 2048) :
    broadcastTo S2x256x2048 v h (ix3 p q r) = v (ix3 (0 : Fin 1) q (0 : Fin 1)) :=
  broadcastTo_apply v h _ _ (fun a => match a with
    | ⟨0, _⟩ => by show 0 = if (1 : Nat) = 1 then 0 else _; rw [if_pos rfl]
    | ⟨1, _⟩ => by show q.val = if (256 : Nat) = 1 then 0 else _; rw [if_neg (by decide)]; rfl
    | ⟨2, _⟩ => by show 0 = if (1 : Nat) = 1 then 0 else _; rw [if_pos rfl])

/-- A [1, 256, 2048] array broadcast along the batch axis reads, at (p, q, r), its entry (0, q, r). -/
theorem bcast_batch (v : S1x256x2048.Idx → EReal) (h : S1x256x2048.Broadcasts S2x256x2048) (p : Fin 2) (q : Fin 256) (r : Fin 2048) :
    broadcastTo S2x256x2048 v h (ix3 p q r) = v (ix3 (0 : Fin 1) q r) :=
  broadcastTo_apply v h _ _ (fun a => match a with
    | ⟨0, _⟩ => by show 0 = if (1 : Nat) = 1 then 0 else _; rw [if_pos rfl]
    | ⟨1, _⟩ => by show q.val = if (256 : Nat) = 1 then 0 else _; rw [if_neg (by decide)]; rfl
    | ⟨2, _⟩ => by show r.val = if (2048 : Nat) = 1 then 0 else _; rw [if_neg (by decide)]; rfl)

/-- The body's stored value at (p, q, r) of its block: ((x − mean_q) · invstd_q) · gᵀ(q, r) + bᵀ(q, r). -/
theorem pay_apply (x0 : Vec Ideal S2x256x2048 .f32) (x1 x2 : Vec Ideal S1x256x1 .f32) (x3 x4 : Vec Ideal S256x2048 .f32)
    (p : Fin 2) (q : Fin 256) (r : Fin 2048) :
    k1_pay1 x0 x1 x2 x3 x4 (ix3 p q r)
      = ((x0 (ix3 p q r) - x1 (ix3 (0 : Fin 1) q (0 : Fin 1))) * x2 (ix3 (0 : Fin 1) q (0 : Fin 1))) * x3 (ix2 q r) + x4 (ix2 q r) := by
  unfold k1_pay1
  simp only [shapeCast_self, addf_apply, mulf_apply, subf_apply, bcast_channel, bcast_batch, shapeCast_ab_1ab_apply]

/-- The same as a function of the block's index. -/
theorem pay_eq (x0 : Vec Ideal S2x256x2048 .f32) (x1 x2 : Vec Ideal S1x256x1 .f32) (x3 x4 : Vec Ideal S256x2048 .f32) :
    k1_pay1 x0 x1 x2 x3 x4
      = fun j => ((x0 j - x1 (ix3 (0 : Fin 1) (j 1) (0 : Fin 1))) * x2 (ix3 (0 : Fin 1) (j 1) (0 : Fin 1))) * x3 (ix2 (j 1) (j 2)) + x4 (ix2 (j 1) (j 2)) := by
  funext j
  obtain ⟨p, q, r, rfl⟩ : ∃ (p : Fin 2) (q : Fin 256) (r : Fin 2048), j = ix3 p q r := ⟨j 0, j 1, j 2, eq_ix3 j⟩
  exact pay_apply x0 x1 x2 x3 x4 p q r

variable (V : (c : Dev nD) → (b : Ref sig .tc) → Buf (Elt Ideal) ((c : Thread nD τ).loc b))

/-- The arrays the call is entered with, each at its literal type: x, the per-channel means and inverse standard
    deviations, and the transposed gamma and beta. -/
abbrev xArr (c : Dev nD) : S64x256x2048.Idx → EReal := V c main_arg0
abbrev meanArr (c : Dev nD) : S1x256x1.Idx → EReal := V c main_v10
abbrev istdArr (c : Dev nD) : S1x256x1.Idx → EReal := V c main_v11
abbrev gArr (c : Dev nD) : S256x2048.Idx → EReal := V c main_v12
abbrev bArr (c : Dev nD) : S256x2048.Idx → EReal := V c main_v13

/-- What the result array ends holding: at (n, q, r), ((x − mean_q) · invstd_q) · gᵀ(q, r) + bᵀ(q, r) of the arrays the
    call is entered with. -/
abbrev normFn (c : Dev nD) : S64x256x2048.Idx → EReal := fun i =>
  ((xArr V c i - meanArr V c (ix3 (0 : Fin 1) (i 1) (0 : Fin 1))) * istdArr V c (ix3 (0 : Fin 1) (i 1) (0 : Fin 1)))
    * gArr V c (ix2 (i 1) (i 2)) + bArr V c (ix2 (i 1) (i 2))

/-- The printed index maps over the grid: the x block and the output block of point t are both batch block t, and
    every other window is the whole of its array. -/
theorem idx_facts : ∀ t : Fin cfg1.N,
    win1_0.index t (0 : Fin 3) = t.val ∧ win1_0.index t (1 : Fin 3) = 0 ∧ win1_0.index t (2 : Fin 3) = 0
    ∧ win1_5.index t (0 : Fin 3) = t.val ∧ win1_5.index t (1 : Fin 3) = 0 ∧ win1_5.index t (2 : Fin 3) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- What point t writes back is block t of `normFn`. -/
theorem flushed_eq (c : Dev nD) (t : Fin cfg1.N) :
    (dat1 V c).flushed 5 t = ((cfg1.win 5).blk t).view.read (Elt Ideal) (normFn V c) := by
  show (cfg1.win 5).cut (grid1.coords t) ((dat1 V c).after 5 t) = _
  rw [after1_5]
  unfold out1_5
  rw [View.canon_unit_zero zero3]
  simp only [View.ld_unit_zero (S := S2x256x2048) zero3, View.ld_unit_zero (S := S1x256x1) zero3, View.ld_unit_zero (S := S256x2048) zero2]
  rw [pay_eq]
  obtain ⟨a0, a1, a2, o0, o1, o2, m0, m1, m2, s0, s1, s2, g0, g1, b0, b1⟩ := idx_facts t
  funext j
  show ((xArr V c (((cfg1.win 0).blk t).view.emb j) - meanArr V c (((cfg1.win 1).blk t).view.emb (ix3 (0 : Fin 1) (j 1) (0 : Fin 1))))
        * istdArr V c (((cfg1.win 2).blk t).view.emb (ix3 (0 : Fin 1) (j 1) (0 : Fin 1))))
        * gArr V c (((cfg1.win 3).blk t).view.emb (ix2 (j 1) (j 2))) + bArr V c (((cfg1.win 4).blk t).view.emb (ix2 (j 1) (j 2)))
      = normFn V c (((cfg1.win 5).blk t).view.emb j)
  have h0 : ((cfg1.win 0).blk t).view.emb j = ((cfg1.win 5).blk t).view.emb j := by
    funext a; apply Fin.ext
    match a with
    | ⟨0, _⟩ => show win1_0.index t (0 : Fin 3) * 2 + 1 * (j 0).val = win1_5.index t (0 : Fin 3) * 2 + 1 * (j 0).val; omega
    | ⟨1, _⟩ => show win1_0.index t (1 : Fin 3) * 256 + 1 * (j 1).val = win1_5.index t (1 : Fin 3) * 256 + 1 * (j 1).val; omega
    | ⟨2, _⟩ => show win1_0.index t (2 : Fin 3) * 2048 + 1 * (j 2).val = win1_5.index t (2 : Fin 3) * 2048 + 1 * (j 2).val; omega
  have h1 : ((cfg1.win 1).blk t).view.emb (ix3 (0 : Fin 1) (j 1) (0 : Fin 1)) = ix3 (0 : Fin 1) ((((cfg1.win 5).blk t).view.emb j) 1) (0 : Fin 1) := by
    funext a; apply Fin.ext
    match a with
    | ⟨0, _⟩ => show win1_1.index t (0 : Fin 3) * 1 + 1 * 0 = 0; omega
    | ⟨1, _⟩ => show win1_1.index t (1 : Fin 3) * 256 + 1 * (j 1).val = win1_5.index t (1 : Fin 3) * 256 + 1 * (j 1).val; omega
    | ⟨2, _⟩ => show win1_1.index t (2 : Fin 3) * 1 + 1 * 0 = 0; omega
  have h2 : ((cfg1.win 2).blk t).view.emb (ix3 (0 : Fin 1) (j 1) (0 : Fin 1)) = ix3 (0 : Fin 1) ((((cfg1.win 5).blk t).view.emb j) 1) (0 : Fin 1) := by
    funext a; apply Fin.ext
    match a with
    | ⟨0, _⟩ => show win1_2.index t (0 : Fin 3) * 1 + 1 * 0 = 0; omega
    | ⟨1, _⟩ => show win1_2.index t (1 : Fin 3) * 256 + 1 * (j 1).val = win1_5.index t (1 : Fin 3) * 256 + 1 * (j 1).val; omega
    | ⟨2, _⟩ => show win1_2.index t (2 : Fin 3) * 1 + 1 * 0 = 0; omega
  have h3 : ((cfg1.win 3).blk t).view.emb (ix2 (j 1) (j 2)) = ix2 ((((cfg1.win 5).blk t).view.emb j) 1) ((((cfg1.win 5).blk t).view.emb j) 2) := by
    funext a; apply Fin.ext
    match a with
    | ⟨0, _⟩ => show win1_3.index t (0 : Fin 2) * 256 + 1 * (j 1).val = win1_5.index t (1 : Fin 3) * 256 + 1 * (j 1).val; omega
    | ⟨1, _⟩ => show win1_3.index t (1 : Fin 2) * 2048 + 1 * (j 2).val = win1_5.index t (2 : Fin 3) * 2048 + 1 * (j 2).val; omega
  have h4 : ((cfg1.win 4).blk t).view.emb (ix2 (j 1) (j 2)) = ix2 ((((cfg1.win 5).blk t).view.emb j) 1) ((((cfg1.win 5).blk t).view.emb j) 2) := by
    funext a; apply Fin.ext
    match a with
    | ⟨0, _⟩ => show win1_4.index t (0 : Fin 2) * 256 + 1 * (j 1).val = win1_5.index t (1 : Fin 3) * 256 + 1 * (j 1).val; omega
    | ⟨1, _⟩ => show win1_4.index t (1 : Fin 2) * 2048 + 1 * (j 2).val = win1_5.index t (2 : Fin 3) * 2048 + 1 * (j 2).val; omega
  rw [h0, h1, h2, h3, h4]
  rfl

/-- An index of the result array is in point t's block iff each coordinate is in the block's range on its axis. -/
theorem mem_blk (t : Fin cfg1.N) (i : S64x256x2048.Idx) :
    i ∈ ((cfg1.win 5).blk t).view.set ↔ ∀ a : Fin 3, win1_5.index t a * S2x256x2048.size a ≤ (i a).val ∧ (i a).val < win1_5.index t a * S2x256x2048.size a + S2x256x2048.size a := by
  show i ∈ ((View.whole main_v14).slice (win1_5.rect t)).set ↔ _
  rw [View.set_slice_whole, Rect.mem_set_unit]
  exact Iff.rfl

/-- Every index of the result array lies in the block of the point that owns its batch row: row n belongs to point n / 2. -/
theorem covered (i : S64x256x2048.Idx) :
    ∃ t : Fin cfg1.N, (cfg1.win 5).flush t = true ∧ i ∈ ((cfg1.win 5).blk t).view.set := by
  have hi0 : (i 0).val < 64 := (i 0).isLt
  have hi1 : (i 1).val < 256 := (i 1).isLt
  have hi2 : (i 2).val < 2048 := (i 2).isLt
  have hN : cfg1.N = 32 := N_1
  let t : Fin cfg1.N := ⟨(i 0).val / 2, by rw [hN]; omega⟩
  have ht : t.val = (i 0).val / 2 := rfl
  obtain ⟨a0, a1, a2, o0, o1, o2, -⟩ := idx_facts t
  refine ⟨t, flush1_5 t, ?_⟩
  rw [mem_blk]
  intro a
  match a with
  | ⟨0, _⟩ => show win1_5.index t (0 : Fin 3) * 2 ≤ (i 0).val ∧ (i 0).val < win1_5.index t (0 : Fin 3) * 2 + 2; omega
  | ⟨1, _⟩ => show win1_5.index t (1 : Fin 3) * 256 ≤ (i 1).val ∧ (i 1).val < win1_5.index t (1 : Fin 3) * 256 + 256; omega
  | ⟨2, _⟩ => show win1_5.index t (2 : Fin 3) * 2048 ≤ (i 2).val ∧ (i 2).val < win1_5.index t (2 : Fin 3) * 2048 + 2048; omega

/-- After the run the result array is `normFn` of the arrays the call is entered with. -/
theorem norm_final (c : Dev nD) : (dat1 V c).arrAt 5 cfg1.N = normFn V c :=
  (dat1 V c).arrAt_eq_of_cover 5 (normFn V c) (fun t _ => flushed_eq V c t) covered

end Cert.KernelIdeal.Norm

end
-- ==== Proof.Between.lean ====
/-
  Between the two pallas_calls the host computes, per channel q, from the two accumulated arrays s (sums) and
  ss (sums of squares), both of shape [1, 256]:
      mean_q   = s_q / 131072
      invstd_q = rsqrt((ss_q / 131072 − mean_q · mean_q) + ε)
  reshapes both to [1, 256, 1], and transposes gamma and beta to [256, 2048]. This module reads those four arrays,
  and x, as the second call finds them, at an index.
-/
import proofs.«121989_j4209067950399_1_alg».proof.Proof.Gen.KernelIdeal.Frame
import proofs.«121989_j4209067950399_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo
open Idealize.ShloMosaic.ValueIdx

/-- A [1, 256] array reshaped to [1, 256, 1] reads, at (0, q, 0), its entry (0, q). -/
theorem cast_column (y : S1x256.Idx → EReal) (h : S1x256.ShapeCasts S1x256x1) (q : Fin 256) :
    shapeCast S1x256x1 y h (ix3 (0 : Fin 1) q (0 : Fin 1)) = y (ix2 (0 : Fin 1) q) :=
  shapeCast_apply y h _ _ (by
    rw [Shape.rowMajor_val_two, Shape.rowMajor_val_three]
    show 0 * 256 + q.val = (0 * 256 + q.val) * 1 + 0
    omega)

variable (m : (ℓ : Loc nD τ sig) → Buf (Elt Ideal) ℓ) (ρ : Dev nD → PrngReg)

/-- The two accumulated arrays as the first call leaves them, and the three arguments as launched, each at its
    literal type. -/
abbrev sumArr (c : Dev nD) : S1x256.Idx → EReal := V1 m ρ c main_v0_0
abbrev sumsqArr (c : Dev nD) : S1x256.Idx → EReal := V1 m ρ c main_v0_1
abbrev xIn (c : Dev nD) : S64x256x2048.Idx → EReal := m ((c.tc : Thread nD τ).loc main_arg0)
abbrev gIn (c : Dev nD) : S2048x256.Idx → EReal := m ((c.tc : Thread nD τ).loc main_arg1)
abbrev bIn (c : Dev nD) : S2048x256.Idx → EReal := m ((c.tc : Thread nD τ).loc main_arg2)

/-- The second call finds x as launched: neither the first call nor the host writes it. -/
theorem entry_x (c : Dev nD) : V2 m ρ c main_arg0 = xIn m c :=
  ((W3_arr m ρ c 0).trans (((dat1 (V2 m ρ) c).arrAt_in 0 rfl _).trans (A_eq1 (V2 m ρ) c 0))).symm.trans (W3_main_arg0 m ρ c)

/-- The first call leaves gamma and beta as launched. -/
theorem mid_g (c : Dev nD) : V1 m ρ c main_arg1 = gIn m c := W1_of_ne m ρ c main_arg1 (by decide)
theorem mid_b (c : Dev nD) : V1 m ρ c main_arg2 = bIn m c := W1_of_ne m ρ c main_arg2 (by decide)

/-- The mean array the second call finds, as the host's operations of the sums. -/
theorem mean_arr (c : Dev nD) : V2 m ρ c main_v10
    = shapeCast S1x256x1 (Host.divf (sumArr m ρ c) (broadcastInDim S1x256 ![] Facts₀.bcast_S_S1x256 (constant (F := Ideal) S_ .f32 0x48000000#32))) Facts₀.shapeCasts_S1x256_S1x256x1 := by
  show StableHlo.after hostOps1 (W1 m ρ c) (Proc.devRef .tc main_v10) = _
  after_results
  rfl

/-- The inverse standard deviation array the second call finds, as the host's operations of the two accumulated arrays. -/
theorem istd_arr (c : Dev nD) : V2 m ρ c main_v11
    = shapeCast S1x256x1 (Host.rsqrt (addf (subf
        (Host.divf (sumsqArr m ρ c) (broadcastInDim S1x256 ![] Facts₀.bcast_S_S1x256 (constant (F := Ideal) S_ .f32 0x48000000#32)))
        (mulf (Host.divf (sumArr m ρ c) (broadcastInDim S1x256 ![] Facts₀.bcast_S_S1x256 (constant (F := Ideal) S_ .f32 0x48000000#32)))
              (Host.divf (sumArr m ρ c) (broadcastInDim S1x256 ![] Facts₀.bcast_S_S1x256 (constant (F := Ideal) S_ .f32 0x48000000#32)))))
        (broadcastInDim S1x256 ![] Facts₀.bcast_S_S1x256 (constant (F := Ideal) S_ .f32 0x38D1B717#32)))) Facts₀.shapeCasts_S1x256_S1x256x1 := by
  show StableHlo.after hostOps1 (W1 m ρ c) (Proc.devRef .tc main_v11) = _
  after_results
  rfl

/-- The transposed gamma and beta the second call finds. -/
theorem g_arr (c : Dev nD) : V2 m ρ c main_v12 = transpose S256x2048 [1, 0] (gIn m c) Facts₀.transposes_S2048x256_S256x2048_1_0 := by
  show StableHlo.after hostOps1 (W1 m ρ c) (Proc.devRef .tc main_v12) = _
  after_results
  exact congrArg (fun y => transpose S256x2048 [1, 0] y Facts₀.transposes_S2048x256_S256x2048_1_0) (mid_g m ρ c)
theorem b_arr (c : Dev nD) : V2 m ρ c main_v13 = transpose S256x2048 [1, 0] (bIn m c) Facts₀.transposes_S2048x256_S256x2048_1_0 := by
  show StableHlo.after hostOps1 (W1 m ρ c) (Proc.devRef .tc main_v13) = _
  after_results
  exact congrArg (fun y => transpose S256x2048 [1, 0] y Facts₀.transposes_S2048x256_S256x2048_1_0) (mid_b m ρ c)

/-- Channel q's mean, as the second call reads it: the channel's accumulated sum over 131072. -/
theorem entry_mean (c : Dev nD) (q : Fin 256) :
    V2 m ρ c main_v10 (ix3 (0 : Fin 1) q (0 : Fin 1)) = Ideal.div (sumArr m ρ c (ix2 (0 : Fin 1) q)) Cert.Bntt.cnt := by
  rw [mean_arr, cast_column]
  rfl

/-- Channel q's inverse standard deviation, as the second call reads it. -/
theorem entry_istd (c : Dev nD) (q : Fin 256) :
    V2 m ρ c main_v11 (ix3 (0 : Fin 1) q (0 : Fin 1))
      = Ideal.rsqrt ((Ideal.div (sumsqArr m ρ c (ix2 (0 : Fin 1) q)) Cert.Bntt.cnt
          - Ideal.div (sumArr m ρ c (ix2 (0 : Fin 1) q)) Cert.Bntt.cnt * Ideal.div (sumArr m ρ c (ix2 (0 : Fin 1) q)) Cert.Bntt.cnt)
          + Cert.Bntt.eps) := by
  rw [istd_arr, cast_column]
  rfl

/-- The transposed gamma and beta at (q, r) are gamma and beta at (r, q). -/
theorem entry_g (c : Dev nD) (q : Fin 256) (r : Fin 2048) : V2 m ρ c main_v12 (ix2 q r) = gIn m c (ix2 r q) := by
  rw [g_arr]; exact transpose_ix2_apply (gIn m c) Facts₀.transposes_S2048x256_S256x2048_1_0 q r
theorem entry_b (c : Dev nD) (q : Fin 256) (r : Fin 2048) : V2 m ρ c main_v13 (ix2 q r) = bIn m c (ix2 r q) := by
  rw [b_arr]; exact transpose_ix2_apply (bIn m c) Facts₀.transposes_S2048x256_S256x2048_1_0 q r

end Cert.KernelIdeal.Between

end
-- ==== Proof.Result.lean ====
/-
  The kernel's result as one function of its three arguments. The second call's output array is, index by index,
  ((x − mean) · invstd) · gammaᵀ + betaᵀ of the arrays it is entered with; those are x as launched, the host's
  per-channel mean and inverse standard deviation of the two accumulated arrays, and the transposed gamma and beta;
  and the accumulated arrays are the per-channel sum and sum of squares of x. Put together, the result at (n, q, t)
  is the normalised entry with the variance taken as second moment minus squared mean.
-/
import proofs.«121989_j4209067950399_1_alg».proof.Proof.Spec
import proofs.«121989_j4209067950399_1_alg».proof.Proof.Launch
import proofs.«121989_j4209067950399_1_alg».proof.Proof.Stats
import proofs.«121989_j4209067950399_1_alg».proof.Proof.Norm
import proofs.«121989_j4209067950399_1_alg».proof.Proof.Between

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.ValueIdx
open Cert.KernelIdeal.Between (xIn gIn bIn sumArr sumsqArr)

/-- The normalised entry depends on its five ingredients only through their values. -/
theorem glue {X X' M M' S S' G G' B B' : EReal} (hx : X = X') (hm : M = M') (hs : S = S') (hg : G = G') (hb : B = B') :
    ((X - M) * S) * G + B = ((X' - M') * S') * G' + B' := by
  subst hx hm hs hg hb; rfl

variable (m : (ℓ : Loc nD τ sig) → Buf (Elt Ideal) ℓ) (ρ : Dev nD → PrngReg)

/-- Channel q's accumulated sum and sum of squares, as the first call leaves them, are the channel's sum and sum
    of squares of x over batch and time. -/
theorem sum_at (c : Dev nD) (q : Fin 256) : sumArr m ρ c (ix2 (0 : Fin 1) q) = Cert.Bntt.chanSum (xIn m c) q :=
  congrFun ((W1_arr m ρ c 1).trans (Cert.KernelIdeal.Stats.sum_final (V0 m ρ) c)) (ix2 (0 : Fin 1) q)
theorem sumsq_at (c : Dev nD) (q : Fin 256) : sumsqArr m ρ c (ix2 (0 : Fin 1) q) = Cert.Bntt.chanSumSq (xIn m c) q :=
  congrFun ((W1_arr m ρ c 2).trans (Cert.KernelIdeal.Stats.sumsq_final (V0 m ρ) c)) (ix2 (0 : Fin 1) q)

/-- The kernel's result array as a function of the arguments as launched. -/
abbrev result (c : Dev nD) : Buf (Elt Ideal) ((c.tc : Thread nD τ).loc main_v14) :=
  fun i => Cert.Bntt.outMoments (xIn m c) (gIn m c) (bIn m c) (i 0) (i 1) (i 2)

/-- The contents the last segment boundary fixes for the result buffer are that function. -/
theorem last_boundary (c : Dev nD) : W3 m ρ c (Proc.devRef .tc main_v14) = result m c := by
  refine (W3_arr m ρ c 5).trans ((Cert.KernelIdeal.Norm.norm_final (V2 m ρ) c).trans ?_)
  funext i
  have hx : Cert.KernelIdeal.Norm.xArr (V2 m ρ) c i = xIn m c (ix3 (i 0) (i 1) (i 2)) :=
    (congrFun (Between.entry_x m ρ c) i).trans (congrArg (xIn m c) (eq_ix3 i))
  have hm : Cert.KernelIdeal.Norm.meanArr (V2 m ρ) c (ix3 (0 : Fin 1) (i 1) (0 : Fin 1)) = Cert.Bntt.mean (xIn m c) (i 1) :=
    (Between.entry_mean m ρ c (i 1)).trans (congrArg (fun s => Ideal.div s Cert.Bntt.cnt) (sum_at m ρ c (i 1)))
  have hs : Cert.KernelIdeal.Norm.istdArr (V2 m ρ) c (ix3 (0 : Fin 1) (i 1) (0 : Fin 1))
      = Ideal.rsqrt (Cert.Bntt.varMoments (xIn m c) (i 1) + Cert.Bntt.eps) :=
    (Between.entry_istd m ρ c (i 1)).trans
      (congrArg₂ (fun s ss => Ideal.rsqrt ((Ideal.div ss Cert.Bntt.cnt - Ideal.div s Cert.Bntt.cnt * Ideal.div s Cert.Bntt.cnt) + Cert.Bntt.eps))
        (sum_at m ρ c (i 1)) (sumsq_at m ρ c (i 1)))
  have hg : Cert.KernelIdeal.Norm.gArr (V2 m ρ) c (ix2 (i 1) (i 2)) = gIn m c (ix2 (i 2) (i 1)) := Between.entry_g m ρ c (i 1) (i 2)
  have hb : Cert.KernelIdeal.Norm.bArr (V2 m ρ) c (ix2 (i 1) (i 2)) = bIn m c (ix2 (i 2) (i 1)) := Between.entry_b m ρ c (i 1) (i 2)
  exact glue hx hm hs hg hb

/-- From any memory with zero counters every weakly fair execution of @main terminates without a fault, the result
    buffer at `result` and the three arguments as launched. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (last_boundary m ρ c), (h c).2⟩) (Cert.KernelIdeal.Launch.run_result m ρ)

end Cert.KernelIdeal.Result

end
-- ==== Proof.lean ====
/-
  Batch normalisation through time in training mode: for x of shape [64, 256, 2048] (batch, channel, time) and
  per-time-step gamma and beta of shape [2048, 256], the result at (n, q, t) is
      ((x[n, q, t] − mean_q) · rsqrt(var_q + ε)) · gamma[t, q] + beta[t, q],
  with mean_q and the biased variance var_q taken over the 131072 positions (n, t) of channel q.

  The kernel makes two passes over x. The first accumulates, over sixteen blocks of four batch rows, each channel's
  sum and sum of squares; the host then takes mean = sum / 131072 and var = sumsq / 131072 − mean², and the second
  pass normalises x block by block. The reference takes var as the mean of (x − mean)². Over the extended reals the
  two agree wherever x holds real numbers, which the precondition grants: a sum of finitely many reals may be
  regrouped freely, and Σ (x − μ)² = Σ x² − 2μ Σ x + N μ² with μ = (Σ x) / N gives (Σ (x − μ)²) / N = (Σ x²) / N − μ².
  Gamma and beta enter both sides in the same places and may be any extended reals.

  The three frames are the programs' runs with their results dropped; the idealisation rewrote nothing.
-/
import proofs.«121989_j4209067950399_1_alg».proof.Defs
import proofs.«121989_j4209067950399_1_alg».proof.Proof.Gen.Kernel
import proofs.«121989_j4209067950399_1_alg».proof.Proof.Gen.Kernel.Skeleton
import proofs.«121989_j4209067950399_1_alg».proof.Proof.Gen.Kernel.Launch
import proofs.«121989_j4209067950399_1_alg».proof.Proof.Gen.Kernel.Points
import proofs.«121989_j4209067950399_1_alg».proof.Proof.Gen.Kernel.Frame
import proofs.«121989_j4209067950399_1_alg».proof.Proof.Gen.KernelIdeal
import proofs.«121989_j4209067950399_1_alg».proof.Proof.Gen.KernelIdeal.Skeleton
import proofs.«121989_j4209067950399_1_alg».proof.Proof.Gen.KernelIdeal.Launch
import proofs.«121989_j4209067950399_1_alg».proof.Proof.Gen.KernelIdeal.Points
import proofs.«121989_j4209067950399_1_alg».proof.Proof.Gen.KernelIdeal.Frame
import proofs.«121989_j4209067950399_1_alg».proof.Proof.Gen.ReferenceIdeal
import proofs.«121989_j4209067950399_1_alg».proof.Proof.Gen.Pre_finite_inputs
import proofs.«121989_j4209067950399_1_alg».proof.Proof.Gen.ReferenceIdeal.Run
import proofs.«121989_j4209067950399_1_alg».proof.Proof.Gen.ReferenceIdeal.Read
import proofs.«121989_j4209067950399_1_alg».proof.Proof.Spec
import proofs.«121989_j4209067950399_1_alg».proof.Proof.Variance
import proofs.«121989_j4209067950399_1_alg».proof.Proof.Finite
import proofs.«121989_j4209067950399_1_alg».proof.Proof.RefValue
import proofs.«121989_j4209067950399_1_alg».proof.Proof.Result
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both runs end with the result array at one function of the arguments: the kernel's with the variance as second
    moment minus squared mean, the reference's as mean squared deviation, equal because every entry of x is real. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v25_eq _ _ _).trans ?_
  funext i
  obtain ⟨n, q, t, rfl⟩ : ∃ (n : Fin 64) (q : Fin 256) (t : Fin 2048), i = ix3 n q t := ⟨i 0, i 1, i 2, eq_ix3 i⟩
  rw [Cert.ReferenceIdeal.RefValue.result_apply]
  exact (Cert.Bntt.outMoments_eq_outCentred _ _ _ (Cert.KernelIdeal.Finite.x_real m hpre c) n q t).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
